-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 65
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S1x128, .f32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S1x64, .f32⟩
  | .hbm, ⟨64, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S128x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The two computations a graph-convolution layer's dense kernels perform, as whole-array functions over the extended reals.

  * `rowScale x s`: every row of `x` multiplied by that row's entry of the one-column array `s` (the degree
    normalisation D^(-1/2) applied row by row).
  * `linear… a s W b`: row `p` of `a`, scaled by `s p`, times the weight matrix `W`, plus the bias row `b`:
    entry (p, q) is  Σ_k (a (p, k) · s p) · W (k, q)  +  b q.  `linearRelu128` takes the maximum with zero afterwards.

  Indices are built from literal-size coordinates, so each entry reads its operands at named rows and columns.
-/
import Idealize.ShloMosaic.PureOps.Ideal
import Idealize.ShloMosaic.Lib.ValueIdx

noncomputable section

open scoped BigOperators

namespace Cert.GraphConvSpec

open Idealize.ShloMosaic Idealize.ShloMosaic.ValueIdx

abbrev SN128 : Shape := ⟨2, ![100000, 128]⟩
abbrev SN64 : Shape := ⟨2, ![100000, 64]⟩
abbrev SN1 : Shape := ⟨2, ![100000, 1]⟩
abbrev SW128 : Shape := ⟨2, ![128, 128]⟩
abbrev SW64 : Shape := ⟨2, ![128, 64]⟩
abbrev SB128 : Shape := ⟨2, ![1, 128]⟩
abbrev SB64 : Shape := ⟨2, ![1, 64]⟩

/-- The row of an index of an array with 100000 rows, as a number below 100000. -/
abbrev rowOf {d : ℕ} (i : (⟨2, ![100000, d]⟩ : Shape).Idx) : Fin 100000 := ⟨(i 0).val, idx2_lt0 i⟩
/-- The column of an index of an array with `d` columns, as a number below `d`. -/
abbrev colOf {d : ℕ} (i : (⟨2, ![100000, d]⟩ : Shape).Idx) : Fin d := ⟨(i 1).val, idx2_lt1 i⟩

/-- Each row of `x` times that row's entry of the column `s`. -/
def rowScale (x : FVec Ideal SN128 .f32) (s : FVec Ideal SN1 .f32) : FVec Ideal SN128 .f32 :=
  fun i => x i * s (ix2 (rowOf i) (0 : Fin 1))

theorem rowScale_apply (x : FVec Ideal SN128 .f32) (s : FVec Ideal SN1 .f32) (p : Fin 100000) (q : Fin 128) :
    rowScale x s (ix2 p q) = x (ix2 p q) * s (ix2 p (0 : Fin 1)) := rfl

/-- Entry (p, q) of the scaled rows of `a` times `W` plus the bias: Σ_k (a (p, k) · s p) · W (k, q) + b q, 128 output columns. -/
def linear128 (a : FVec Ideal SN128 .f32) (s : FVec Ideal SN1 .f32) (W : FVec Ideal SW128 .f32) (b : FVec Ideal SB128 .f32) :
    FVec Ideal SN128 .f32 :=
  fun i => (∑ k : Fin 128, (a (ix2 (rowOf i) k) * s (ix2 (rowOf i) (0 : Fin 1))) * W (ix2 k (colOf i))) + b (ix2 (0 : Fin 1) (colOf i))

theorem linear128_apply (a : FVec Ideal SN128 .f32) (s : FVec Ideal SN1 .f32) (W : FVec Ideal SW128 .f32) (b : FVec Ideal SB128 .f32)
    (p : Fin 100000) (q : Fin 128) :
    linear128 a s W b (ix2 p q) = (∑ k : Fin 128, (a (ix2 p k) * s (ix2 p (0 : Fin 1))) * W (ix2 k q)) + b (ix2 (0 : Fin 1) q) := rfl

/-- The same followed by the maximum with zero. -/
def linearRelu128 (a : FVec Ideal SN128 .f32) (s : FVec Ideal SN1 .f32) (W : FVec Ideal SW128 .f32) (b : FVec Ideal SB128 .f32) :
    FVec Ideal SN128 .f32 :=
  fun i => max (linear128 a s W b i) (Ideal.ofBits .f32 0x00000000#32)

theorem linearRelu128_apply (a : FVec Ideal SN128 .f32) (s : FVec Ideal SN1 .f32) (W : FVec Ideal SW128 .f32) (b : FVec Ideal SB128 .f32)
    (p : Fin 100000) (q : Fin 128) :
    linearRelu128 a s W b (ix2 p q)
      = max ((∑ k : Fin 128, (a (ix2 p k) * s (ix2 p (0 : Fin 1))) * W (ix2 k q)) + b (ix2 (0 : Fin 1) q)) (Ideal.ofBits .f32 0x00000000#32) := rfl

/-- Entry (p, q) of the scaled rows of `a` times `W` plus the bias, 64 output columns. -/
def linear64 (a : FVec Ideal SN128 .f32) (s : FVec Ideal SN1 .f32) (W : FVec Ideal SW64 .f32) (b : FVec Ideal SB64 .f32) :
    FVec Ideal SN64 .f32 :=
  fun i => (∑ k : Fin 128, (a (ix2 (rowOf i) k) * s (ix2 (rowOf i) (0 : Fin 1))) * W (ix2 k (colOf i))) + b (ix2 (0 : Fin 1) (colOf i))

theorem linear64_apply (a : FVec Ideal SN128 .f32) (s : FVec Ideal SN1 .f32) (W : FVec Ideal SW64 .f32) (b : FVec Ideal SB64 .f32)
    (p : Fin 100000) (q : Fin 64) :
    linear64 a s W b (ix2 p q) = (∑ k : Fin 128, (a (ix2 p k) * s (ix2 p (0 : Fin 1))) * W (ix2 k q)) + b (ix2 (0 : Fin 1) q) := rfl

end Cert.GraphConvSpec

end
-- ==== Proof.KDefs.lean ====
/-
  The kernel program's result as ONE function of its seven argument arrays, at the extended reals.

  Around its four dense kernels the program runs plain array operations: the in- and out-degrees as scatter-added ones,
  clamped below at one and raised to the power -1/2 (`invSqrtDeg`); a vector laid out as a one-column or a one-row array
  (`asColumn`, `asRow128`, `asRow64`); and the sparse aggregation `aggregate x src dst`: gather the rows of `x` named by
  `src` (a negative index counted from the end) and scatter-add them at the rows named by `dst`.
  `kernelResult` composes these with the dense kernels' whole-array functions (`rowScale`, `linearRelu128`, `linear64`):
  two graph-convolution layers, each  D_in^(-1/2) · A · D_out^(-1/2) · x · W + b,  the first followed by max(·, 0).
-/
import proofs.«181453_j77584289235636_1_alg».proof.Proof.Gen.KernelIdeal
import proofs.«181453_j77584289235636_1_alg».proof.Proof.Spec

noncomputable section

namespace Cert.KernelIdeal.Hand

open Cert.KernelIdeal Cert.KernelIdeal.Facts₀ Cert.KernelIdeal.Facts Idealize.ShloMosaic Idealize.ShloMosaic.TcCoe
open Cert.GraphConvSpec (rowScale linearRelu128 linear64)

/-- One 32-bit index per edge. -/
abbrev EdgeIdx := (⟨S1600000, .i32⟩ : BufTy).Contents (Elt Ideal)

/-- deg^(-1/2) per node, the degree being the number of edges whose index names the node, clamped below at one. -/
def invSqrtDeg (idx : EdgeIdx) : FVec Ideal S100000 .f32 :=
  Host.powf (F := Ideal)
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- A per-node vector as a one-column array. -/
def asColumn (v : FVec Ideal S100000 .f32) : FVec Ideal S100000x1 .f32 :=
  shapeCast S100000x1 v shapeCasts_S100000_S100000x1

/-- A 128-vector as a one-row array. -/
def asRow128 (b : FVec Ideal S128 .f32) : FVec Ideal S1x128 .f32 :=
  shapeCast S1x128 b shapeCasts_S128_S1x128

/-- A 64-vector as a one-row array. -/
def asRow64 (b : FVec Ideal S64 .f32) : FVec Ideal S1x64 .f32 :=
  shapeCast S1x64 b shapeCasts_S64_S1x64

/-- The edge sources with a negative index counted from the end, as a one-column index array. -/
def sourceRows (src : EdgeIdx) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Sum, into each destination node's row, of the source nodes' rows of `x` over the edges. -/
def aggregate (x : FVec Ideal S100000x128 .f32) (src dst : EdgeIdx) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (sourceRows src))

/-- The first layer's output: max(D_in^(-1/2) A D_out^(-1/2) x0 W1 + b1, 0). -/
def hidden (x0 : FVec Ideal S100000x128 .f32) (x1 : FVec Ideal S128x128 .f32) (x2 : FVec Ideal S128 .f32) (x5 x6 : EdgeIdx) :
    FVec Ideal S100000x128 .f32 :=
  linearRelu128 (aggregate (rowScale x0 (asColumn (invSqrtDeg x5))) x5 x6) (asColumn (invSqrtDeg x6)) x1 (asRow128 x2)

/-- The program's result: the second layer applied to the first's output. -/
def kernelResult (x0 : FVec Ideal S100000x128 .f32) (x1 : FVec Ideal S128x128 .f32) (x2 : FVec Ideal S128 .f32)
    (x3 : FVec Ideal S128x64 .f32) (x4 : FVec Ideal S64 .f32) (x5 x6 : EdgeIdx) : FVec Ideal S100000x64 .f32 :=
  linear64 (aggregate (rowScale (hidden x0 x1 x2 x5 x6) (asColumn (invSqrtDeg x5))) x5 x6) (asColumn (invSqrtDeg x6)) x3 (asRow64 x4)

end Cert.KernelIdeal.Hand

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.RegScale.lean ====
/-
  The two row-scaling kernels (the first and the third pallas_call), each read off its pipeline as one whole-array function.

  Grid point t stages rows 10000·t … 10000·t + 9999 of the [100000, 128] operand and of the [100000, 1] column, multiplies
  each row by its column entry, and writes the block back to the same rows of the result. The ten blocks tile the result,
  so after the run the result array is `rowScale` of the two operand arrays as the region found them.
-/
import proofs.«181453_j77584289235636_1_alg».proof.Proof.Gen.KernelIdeal.Frame
import proofs.«181453_j77584289235636_1_alg».proof.Proof.KDefs
import proofs.«181453_j77584289235636_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand.Scale

open Cert.KernelIdeal Cert.KernelIdeal.Facts₀ Cert.KernelIdeal.Facts Cert.KernelIdeal.Gen
open Cert.GraphConvSpec (rowScale linear128 linearRelu128 linear64)

/-- The zero offsets of a store that fills its whole buffer. -/
theorem zeroOffsets : (![0, 0] : Fin 2 → Nat) = fun _ => 0 := funext fun a => by fin_cases a <;> rfl

/-! ## One block: entry (p, q) is the operand's entry times the column's entry of row p -/

/-- The first kernel's body at entry (p, q) of its block: the column is cast to itself and spread over the 128 lanes,
    so lane q of row p is multiplied by the column's entry of row p. -/
theorem scaledBlock0_apply (x : Vec Ideal S10000x128 .f32) (s : Vec Ideal S10000x1 .f32) (p : Fin 10000) (q : Fin 128) :
    k0_pay1 (F := Ideal) x s (ix2 p q) = x (ix2 p q) * s (ix2 p (0 : Fin 1)) := by
  unfold k0_pay1
  refine (mulf_apply _ _ _).trans ?_
  refine congrArg (x (ix2 p q) * ·) ?_
  refine (Keepdims.broadcastTo_a1_ab_apply _ _ p q).trans ?_
  rw [shapeCast_self]

/-- The third kernel's body at entry (p, q) of its block: the same product, the operand block first cast to itself. -/
theorem scaledBlock2_apply (x : Vec Ideal S10000x128 .f32) (s : Vec Ideal S10000x1 .f32) (p : Fin 10000) (q : Fin 128) :
    k2_pay1 (F := Ideal) x s (ix2 p q) = x (ix2 p q) * s (ix2 p (0 : Fin 1)) := by
  unfold k2_pay1
  refine (mulf_apply _ _ _).trans ?_
  rw [shapeCast_self]
  refine congrArg (x (ix2 p q) * ·) ?_
  refine (Keepdims.broadcastTo_a1_ab_apply _ _ p q).trans ?_
  rw [shapeCast_self]

-- the TensorCore's buffer contents when the region is entered: any
variable (V : (c : Dev nD) → (b : Ref sig .tc) → Buf (Elt Ideal) ((c : Thread nD τ).loc b))

/-! ## The first pallas_call -/

/-- The printed index maps, decided over the grid: at point t every window is on block (t, 0). -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Point t's block of the operand is its rows 10000·t … 10000·t + 9999. -/
theorem operandBlock0_apply (c : Dev nD) (t : Fin cfg0.N) (p : Fin 10000) (q : Fin 128) (r : Fin 100000)
    (hr : r.val = t.val * 10000 + p.val) :
    (iblk0 (F := Ideal) V c 0 t : Vec Ideal S10000x128 .f32) (ix2 p q) = (V c main_arg0 : S100000x128.Idx → EReal) (ix2 r q) := by
  obtain ⟨e0, e1, -⟩ := blockIndex0 t
  unfold iblk0
  rw [View.read_apply]
  show V c main_arg0 _ = V c main_arg0 _
  refine congrArg (V c main_arg0) ?_
  funext a; apply Fin.ext
  match a with
  | ⟨0, _⟩ => show win0_0.index t (0 : Fin 2) * 10000 + 1 * p.val = r.val; omega
  | ⟨1, _⟩ => show win0_0.index t (1 : Fin 2) * 128 + 1 * q.val = q.val; omega

/-- Point t's block of the column is its rows 10000·t … 10000·t + 9999. -/
theorem columnBlock0_apply (c : Dev nD) (t : Fin cfg0.N) (p : Fin 10000) (u : Fin 1) (r : Fin 100000)
    (hr : r.val = t.val * 10000 + p.val) :
    (iblk0 (F := Ideal) V c 1 t : Vec Ideal S10000x1 .f32) (ix2 p u) = (V c main_v15 : S100000x1.Idx → EReal) (ix2 r u) := by
  obtain ⟨-, -, e2, e3, -⟩ := blockIndex0 t
  unfold iblk0
  rw [View.read_apply]
  show V c main_v15 _ = V c main_v15 _
  refine congrArg (V c main_v15) ?_
  funext a; apply Fin.ext
  match a with
  | ⟨0, _⟩ => show win0_1.index t (0 : Fin 2) * 10000 + 1 * p.val = r.val; omega
  | ⟨1, _⟩ => show win0_1.index t (1 : Fin 2) * 1 + 1 * u.val = u.val; omega

/-- What point t writes back is block t of the row-scaled operand. -/
theorem flushed0_eq (c : Dev nD) (t : Fin cfg0.N) :
    (dat0 (F := Ideal) V c).flushed 2 t
      = ((cfg0.win 2).blk t).view.read (Elt Ideal) (rowScale (V c main_arg0) (V c main_v15)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S10000x1) zeroOffsets]
  obtain ⟨-, -, -, -, e4, e5⟩ := blockIndex0 t
  funext j
  obtain ⟨p, q, rfl⟩ : ∃ (p : Fin 10000) (q : Fin 128), j = ix2 p q := ⟨j 0, j 1, eq_ix2 j⟩
  have ht : t.val < 10 := lt_of_lt_of_eq t.isLt N_0
  have hp : p.val < 10000 := p.isLt
  have hrow : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show k0_pay1 (F := Ideal) (iblk0 V c 0 t) (iblk0 V c 1 t) (ix2 p q)
    = rowScale (V c main_arg0) (V c main_v15) (((cfg0.win 2).blk t).view.emb (ix2 p q))
  rw [hrow]
  refine (scaledBlock0_apply _ _ p q).trans ?_
  rw [operandBlock0_apply V c t p q ⟨t.val * 10000 + p.val, by omega⟩ rfl,
    columnBlock0_apply V c t p 0 ⟨t.val * 10000 + p.val, by omega⟩ rfl]
  rfl

/-- An index of the result is in point t's block iff each coordinate is in the block's range on its axis. -/
theorem mem_block0 (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v16).slice (win0_2.rect t)).set ↔ _
  rw [View.set_slice_whole, Rect.mem_set_unit]
  exact Iff.rfl

/-- Row r of the result lies in the block of point r / 10000, which writes back: the ten blocks cover the array. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  have htv : t.val = (i 0).val / 10000 := rfl
  obtain ⟨-, -, -, -, e4, e5⟩ := blockIndex0 t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the first pallas_call its result array is the operand with every row scaled by its column entry. -/
theorem final0 (c : Dev nD) :
    (dat0 (F := Ideal) V c).arrAt 2 cfg0.N = rowScale (V c main_arg0) (V c main_v15) :=
  (dat0 V c).arrAt_eq_of_cover 2 _ (fun t _ => flushed0_eq V c t) covered0

/-! ## The third pallas_call -/

/-- The printed index maps, decided over the grid: at point t every window is on block (t, 0). -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Point t's block of the operand is its rows 10000·t … 10000·t + 9999. -/
theorem operandBlock2_apply (c : Dev nD) (t : Fin cfg2.N) (p : Fin 10000) (q : Fin 128) (r : Fin 100000)
    (hr : r.val = t.val * 10000 + p.val) :
    (iblk2 (F := Ideal) V c 0 t : Vec Ideal S10000x128 .f32) (ix2 p q) = (V c main_v29 : S100000x128.Idx → EReal) (ix2 r q) := by
  obtain ⟨e0, e1, -⟩ := blockIndex2 t
  unfold iblk2
  rw [View.read_apply]
  show V c main_v29 _ = V c main_v29 _
  refine congrArg (V c main_v29) ?_
  funext a; apply Fin.ext
  match a with
  | ⟨0, _⟩ => show win2_0.index t (0 : Fin 2) * 10000 + 1 * p.val = r.val; omega
  | ⟨1, _⟩ => show win2_0.index t (1 : Fin 2) * 128 + 1 * q.val = q.val; omega

/-- Point t's block of the column is its rows 10000·t … 10000·t + 9999. -/
theorem columnBlock2_apply (c : Dev nD) (t : Fin cfg2.N) (p : Fin 10000) (u : Fin 1) (r : Fin 100000)
    (hr : r.val = t.val * 10000 + p.val) :
    (iblk2 (F := Ideal) V c 1 t : Vec Ideal S10000x1 .f32) (ix2 p u) = (V c main_v30 : S100000x1.Idx → EReal) (ix2 r u) := by
  obtain ⟨-, -, e2, e3, -⟩ := blockIndex2 t
  unfold iblk2
  rw [View.read_apply]
  show V c main_v30 _ = V c main_v30 _
  refine congrArg (V c main_v30) ?_
  funext a; apply Fin.ext
  match a with
  | ⟨0, _⟩ => show win2_1.index t (0 : Fin 2) * 10000 + 1 * p.val = r.val; omega
  | ⟨1, _⟩ => show win2_1.index t (1 : Fin 2) * 1 + 1 * u.val = u.val; omega

/-- What point t writes back is block t of the row-scaled operand. -/
theorem flushed2_eq (c : Dev nD) (t : Fin cfg2.N) :
    (dat2 (F := Ideal) V c).flushed 2 t
      = ((cfg2.win 2).blk t).view.read (Elt Ideal) (rowScale (V c main_v29) (V c main_v30)) := by
  show (cfg2.win 2).cut (grid2.coords t) ((dat2 V c).after 2 t) = _
  rw [after2_2]
  unfold out2_2
  rw [View.canon_unit_zero zeroOffsets]
  simp only [View.ld_unit_zero (S := S10000x128) zeroOffsets, View.ld_unit_zero (S := S10000x1) zeroOffsets]
  obtain ⟨-, -, -, -, e4, e5⟩ := blockIndex2 t
  funext j
  obtain ⟨p, q, rfl⟩ : ∃ (p : Fin 10000) (q : Fin 128), j = ix2 p q := ⟨j 0, j 1, eq_ix2 j⟩
  have ht : t.val < 10 := lt_of_lt_of_eq t.isLt N_2
  have hp : p.val < 10000 := p.isLt
  have hrow : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show k2_pay1 (F := Ideal) (iblk2 V c 0 t) (iblk2 V c 1 t) (ix2 p q)
    = rowScale (V c main_v29) (V c main_v30) (((cfg2.win 2).blk t).view.emb (ix2 p q))
  rw [hrow]
  refine (scaledBlock2_apply _ _ p q).trans ?_
  rw [operandBlock2_apply V c t p q ⟨t.val * 10000 + p.val, by omega⟩ rfl,
    columnBlock2_apply V c t p 0 ⟨t.val * 10000 + p.val, by omega⟩ rfl]
  rfl

/-- An index of the result is in point t's block iff each coordinate is in the block's range on its axis. -/
theorem mem_block2 (t : Fin cfg2.N) (i : S100000x128.Idx) :
    i ∈ ((cfg2.win 2).blk t).view.set
      ↔ ∀ a : Fin 2, win2_2.index t a * S10000x128.size a ≤ (i a).val
          ∧ (i a).val < win2_2.index t a * S10000x128.size a + S10000x128.size a := by
  show i ∈ ((View.whole main_v31).slice (win2_2.rect t)).set ↔ _
  rw [View.set_slice_whole, Rect.mem_set_unit]
  exact Iff.rfl

/-- Row r of the result lies in the block of point r / 10000, which writes back: the ten blocks cover the array. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  have htv : t.val = (i 0).val / 10000 := rfl
  obtain ⟨-, -, -, -, e4, e5⟩ := blockIndex2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- After the third pallas_call its result array is the operand with every row scaled by its column entry. -/
theorem final2 (c : Dev nD) :
    (dat2 (F := Ideal) V c).arrAt 2 cfg2.N = rowScale (V c main_v29) (V c main_v30) :=
  (dat2 V c).arrAt_eq_of_cover 2 _ (fun t _ => flushed2_eq V c t) covered2

end Cert.KernelIdeal.Hand.Scale

end
-- ==== Proof.RegLinear1.lean ====
/-
  The first fused linear kernel (the second pallas_call) read off its pipeline as one whole-array function.

  Grid point t stages rows 10000·t … 10000·t + 9999 of the aggregated features and of the in-degree column, and the whole
  weight matrix and bias row; it scales each row, multiplies by the weights (the narrowing to bf16 is the identity on
  extended reals and the matrix product into a zero accumulator is the plain sum over the 128 contracted entries), adds
  the bias and takes the maximum with zero. The ten row blocks tile the result.
-/
import proofs.«181453_j77584289235636_1_alg».proof.Proof.Gen.KernelIdeal.Frame
import proofs.«181453_j77584289235636_1_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«181453_j77584289235636_1_alg».proof.Proof.LibKeepdims

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand.Linear1

open Cert.KernelIdeal Cert.KernelIdeal.Facts₀ Cert.KernelIdeal.Facts Cert.KernelIdeal.Gen
open Cert.GraphConvSpec (rowScale linear128 linearRelu128 linear64)

-- the TensorCore's buffer contents when the region is entered: any
variable (V : (c : Dev nD) → (b : Ref sig .tc) → Buf (Elt Ideal) ((c : Thread nD τ).loc b))

/-! ## The body's arithmetic at one entry of a block -/

/-- A block is loaded and stored whole: its offsets are zero. -/
theorem zeroOffsets : (![0, 0] : Fin 2 → Nat) = fun _ => 0 := funext fun a => by fin_cases a <;> rfl

/-- The left operand of the block's matrix product is read at the output's row … -/
theorem lhsRow (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the contracted column; -/
theorem lhsCol (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
/-- the right operand at the contracted row … -/
theorem rhsRow (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
/-- … and at the output's column. -/
theorem rhsCol (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's matrix product into a zero accumulator, entry (p, q): Σ_k a (p, k) · w (k, q). -/
theorem matmul_block_apply {φ₁ φ₂ : FTy} (a : FVec Ideal S10000x128 φ₁) (w : FVec Ideal S128x128 φ₂) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  refine (Ideal.matmul_constant_zero_apply dot_S10000x128_S128x128_S10000x128_1_0_0_1_n_n none a w (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun ax => Fin.ext (by
    match ax with
    | ⟨0, _⟩ => exact lhsRow _ _
    | ⟨1, _⟩ => exact (lhsCol _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun ax => Fin.ext (by
    match ax with
    | ⟨0, _⟩ => exact (rhsRow _ _).trans hk
    | ⟨1, _⟩ => exact rhsCol _ _)
  rw [el, er]

/-- What the body stores at entry (p, q) of its block, from the four staged blocks: the row of `x0` scaled by the row's
    entry of the column `x1`, times column q of `x2`, plus entry q of the row `x3`, and the maximum of that with zero. -/
theorem payload_apply (x0 : Vec Ideal S10000x128 .f32) (x1 : Vec Ideal S10000x1 .f32) (x2 : Vec Ideal S128x128 .f32)
    (x3 : Vec Ideal S1x128 .f32) (p : Fin 10000) (q : Fin 128) :
    (k1_pay1 (F := Ideal) x0 x1 x2 x3) (ix2 p q)
      = max ((∑ k : Fin 128, (x0 (ix2 p k) * x1 (ix2 p (0 : Fin 1))) * x2 (ix2 k q)) + x3 (ix2 (0 : Fin 1) q))
          (Ideal.ofBits .f32 0x00000000#32) := by
  unfold k1_pay1
  rw [maximumf_apply, addf_apply, broadcast_apply]
  refine congrArg₂ max (congrArg₂ (· + ·) ?_ ?_) rfl
  · refine (matmul_block_apply _ _ p q).trans (Finset.sum_congr rfl fun k _ => ?_)
    rw [truncf_apply, truncf_apply, mulf_apply, shapeCast_self, shapeCast_self]
    exact congrArg (fun z => x0 (ix2 p k) * z * x2 (ix2 k q)) (Keepdims.broadcastTo_a1_ab_apply x1 _ p k)
  · rw [shapeCast_self]
    exact broadcastTo_1b_ab_apply x3 _ p q

/-! ## The staged blocks as rows of the operand arrays -/

/-- Which block each window stages at grid point t, decided over the ten points: the row windows (the aggregated
    features, the degree column, the result) block (t, 0); the weights and the bias row always block (0, 0). -/
theorem blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the features' block at point t is row 10000·t + p of the array. -/
theorem featuresBlock_apply (c : Dev nD) (t : Fin cfg1.N) (p : Fin 10000) (k : Fin 128) (r : Fin 100000)
    (hr : r.val = t.val * 10000 + p.val) :
    (iblk1 (F := Ideal) V c 0 t : Vec Ideal S10000x128 .f32) (ix2 p k) = (V c main_v26 : FVec Ideal S100000x128 .f32) (ix2 r k) := by
  obtain ⟨e0, e1, -⟩ := blockIndices t
  unfold iblk1
  rw [View.read_apply]
  show V c main_v26 _ = V c main_v26 _
  congr 1
  funext a; apply Fin.ext
  match a with
  | ⟨0, _⟩ => show win1_0.index t (0 : Fin 2) * 10000 + 1 * p.val = r.val; omega
  | ⟨1, _⟩ => show win1_0.index t (1 : Fin 2) * 128 + 1 * k.val = k.val; omega

/-- Row p of the degree column's block at point t is row 10000·t + p of the column. -/
theorem degreeBlock_apply (c : Dev nD) (t : Fin cfg1.N) (p : Fin 10000) (r : Fin 100000)
    (hr : r.val = t.val * 10000 + p.val) :
    (iblk1 (F := Ideal) V c 1 t : Vec Ideal S10000x1 .f32) (ix2 p (0 : Fin 1)) = (V c main_v27 : FVec Ideal S100000x1 .f32) (ix2 r (0 : Fin 1)) := by
  obtain ⟨-, -, e2, e3, -⟩ := blockIndices t
  unfold iblk1
  rw [View.read_apply]
  show V c main_v27 _ = V c main_v27 _
  congr 1
  funext a; apply Fin.ext
  match a with
  | ⟨0, _⟩ => show win1_1.index t (0 : Fin 2) * 10000 + 1 * p.val = r.val; omega
  | ⟨1, _⟩ => show win1_1.index t (1 : Fin 2) * 1 + 1 * 0 = 0; omega

/-- The weights' block is the whole matrix at every point. -/
theorem weightsBlock_apply (c : Dev nD) (t : Fin cfg1.N) (k q : Fin 128) :
    (iblk1 (F := Ideal) V c 2 t : Vec Ideal S128x128 .f32) (ix2 k q) = (V c main_arg1 : FVec Ideal S128x128 .f32) (ix2 k q) := by
  obtain ⟨-, -, -, -, e4, e5, -⟩ := blockIndices t
  unfold iblk1
  rw [View.read_apply]
  show V c main_arg1 _ = V c main_arg1 _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The bias block is the whole row at every point. -/
theorem biasBlock_apply (c : Dev nD) (t : Fin cfg1.N) (q : Fin 128) :
    (iblk1 (F := Ideal) V c 3 t : Vec Ideal S1x128 .f32) (ix2 (0 : Fin 1) q) = (V c main_v28 : FVec Ideal S1x128 .f32) (ix2 (0 : Fin 1) q) := by
  obtain ⟨-, -, -, -, -, -, e6, e7, -⟩ := blockIndices t
  unfold iblk1
  rw [View.read_apply]
  show V c main_v28 _ = V c main_v28 _
  congr 1
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-! ## From the blocks to the array -/

/-- What point t writes back is rows 10000·t … 10000·t + 9999 of `linearRelu128` of the operand arrays. -/
theorem flushed_eq (c : Dev nD) (t : Fin cfg1.N) :
    (dat1 (F := Ideal) V c).flushed 4 t
      = ((cfg1.win 4).blk t).view.read (Elt Ideal)
          (linearRelu128 (V c main_v26) (V c main_v27) (V c main_arg1) (V c main_v28)) := by
  show (cfg1.win 4).cut (grid1.coords t) ((dat1 (F := Ideal) V c).after 4 t) = _
  rw [after1_4]
  unfold out1_4
  rw [View.canon_unit_zero zeroOffsets]
  simp only [View.ld_unit_zero (S := S10000x128) zeroOffsets, View.ld_unit_zero (S := S10000x1) zeroOffsets,
    View.ld_unit_zero (S := S128x128) zeroOffsets, View.ld_unit_zero (S := S1x128) zeroOffsets]
  obtain ⟨-, -, -, -, -, -, -, -, e8, e9⟩ := blockIndices t
  have ht : t.val < 10 := by have h : t.val < grid1.N := t.isLt; rw [N_1] at h; exact h
  funext j
  obtain ⟨p, q, rfl⟩ : ∃ (p : Fin 10000) (q : Fin 128), j = ix2 p q := ⟨j 0, j 1, eq_ix2 j⟩
  have hp : p.val < 10000 := p.isLt
  let r : Fin 100000 := ⟨t.val * 10000 + p.val, by omega⟩
  have hemb : ((cfg1.win 4).blk t).view.emb (ix2 p q) = (ix2 r q : S100000x128.Idx) := by
    funext a; apply Fin.ext
    match a with
    | ⟨0, _⟩ => show win1_4.index t (0 : Fin 2) * 10000 + 1 * p.val = t.val * 10000 + p.val; omega
    | ⟨1, _⟩ => show win1_4.index t (1 : Fin 2) * 128 + 1 * q.val = q.val; omega
  show (k1_pay1 (F := Ideal) (iblk1 V c 0 t) (iblk1 V c 1 t) (iblk1 V c 2 t) (iblk1 V c 3 t)) (ix2 p q)
    = linearRelu128 (V c main_v26) (V c main_v27) (V c main_arg1) (V c main_v28) (((cfg1.win 4).blk t).view.emb (ix2 p q))
  rw [hemb, payload_apply, Cert.GraphConvSpec.linearRelu128_apply]
  refine congrArg₂ max (congrArg₂ (· + ·) (Finset.sum_congr rfl fun k _ => ?_) (biasBlock_apply V c t q)) rfl
  rw [featuresBlock_apply V c t p k r rfl, degreeBlock_apply V c t p r rfl, weightsBlock_apply V c t k q]

/-- An index of the result array is in point t's block iff each coordinate is in the block's range on its axis. -/
theorem mem_block (t : Fin cfg1.N) (i : S100000x128.Idx) :
    i ∈ ((cfg1.win 4).blk t).view.set
      ↔ ∀ a : Fin 2, win1_4.index t a * S10000x128.size a ≤ (i a).val
          ∧ (i a).val < win1_4.index t a * S10000x128.size a + S10000x128.size a := by
  show i ∈ ((View.whole main_v29).slice (win1_4.rect t)).set ↔ _
  rw [View.set_slice_whole, Rect.mem_set_unit]
  exact Iff.rfl

/-- The ten row blocks tile the result: row i₀ lies in the block of point i₀ / 10000, which is written back. -/
theorem covered (i : S100000x128.Idx) :
    ∃ t : Fin cfg1.N, (cfg1.win 4).flush t = true ∧ i ∈ ((cfg1.win 4).blk t).view.set := by
  have h0 : (i 0).val < 100000 := idx2_lt0 i
  have h1 : (i 1).val < 128 := idx2_lt1 i
  have hlt : (i 0).val / 10000 < grid1.N := by rw [N_1]; omega
  obtain ⟨t, ht⟩ : ∃ t : Fin cfg1.N, t.val = (i 0).val / 10000 := ⟨⟨(i 0).val / 10000, hlt⟩, rfl⟩
  obtain ⟨-, -, -, -, -, -, -, -, e8, e9⟩ := blockIndices t
  refine ⟨t, flush1_4 t, ?_⟩
  rw [mem_block]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 128 ≤ (i 1).val ∧ (i 1).val < win1_4.index t (1 : Fin 2) * 128 + 128
    omega

/-- After the second pallas_call its result array is `linearRelu128` of its four operand arrays as the region found them. -/
theorem final1 (c : Dev nD) :
    (dat1 (F := Ideal) V c).arrAt 4 cfg1.N = linearRelu128 (V c main_v26) (V c main_v27) (V c main_arg1) (V c main_v28) :=
  (dat1 (F := Ideal) V c).arrAt_eq_of_cover 4 _ (fun t _ => flushed_eq V c t) covered

end Cert.KernelIdeal.Hand.Linear1

end
-- ==== Proof.RegLinear2.lean ====
/-
  The second fused linear kernel (the fourth pallas_call) read off its pipeline as one whole-array function.

  As the first, with a [128, 64] weight matrix, a [1, 64] bias row, 64 output columns and no maximum with zero.
-/
import proofs.«181453_j77584289235636_1_alg».proof.Proof.Gen.KernelIdeal.Frame
import proofs.«181453_j77584289235636_1_alg».proof.Proof.KDefs
import proofs.«181453_j77584289235636_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand.Linear2

open Cert.KernelIdeal Cert.KernelIdeal.Facts₀ Cert.KernelIdeal.Facts Cert.KernelIdeal.Gen
open Cert.GraphConvSpec (rowScale linear128 linearRelu128 linear64)

/-! ## The block's matrix product at an entry -/

/-- The left operand is read at the result's row ... -/
theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- ... and at the contracted coordinate as its column; -/
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- the right operand at the contracted coordinate as its row ... -/
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- ... and at the result's column. -/
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of the block product from a zero accumulator: Σ_k a (p, k) · w (k, q). -/
theorem matmul_entry {φ₁ φ₂ : FTy} (a : FVec Ideal S10000x128 φ₁) (w : FVec Ideal S128x64 φ₂) (p : Fin 10000) (q : Fin 64) :
    matmul dot_S10000x128_S128x64_S10000x64_1_0_0_1_n_n none a w (constant (F := Ideal) S10000x64 .f32 0x00000000#32) (ix2 p q)
      = ∑ k : Fin 128, a (ix2 p k) * w (ix2 k q) := by
  show FloatOps.matmul dot_S10000x128_S128x64_S10000x64_1_0_0_1_n_n none a w (constant S10000x64 .f32 0x00000000#32) (ix2 p q) = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's payload at an entry -/

/-- Entry (p, q) of what the body stores: Σ_k (x0 (p, k) · x1 (p, 0)) · x2 (k, q) + x3 (0, q). -/
theorem pay_entry (x0 : Vec Ideal S10000x128 .f32) (x1 : Vec Ideal S10000x1 .f32) (x2 : Vec Ideal S128x64 .f32) (x3 : Vec Ideal S1x64 .f32)
    (p : Fin 10000) (q : Fin 64) :
    k3_pay1 (F := Ideal) x0 x1 x2 x3 (ix2 p q)
      = (∑ k : Fin 128, (x0 (ix2 p k) * x1 (ix2 p (0 : Fin 1))) * x2 (ix2 k q)) + x3 (ix2 (0 : Fin 1) q) := by
  unfold k3_pay1
  simp only [shapeCast_self]
  rw [addf_apply, matmul_entry, broadcastTo_1b_ab_apply]
  congr 1
  refine Finset.sum_congr rfl fun k _ => ?_
  rw [truncf_apply, truncf_apply, mulf_apply, Keepdims.broadcastTo_a1_ab_apply]

-- the TensorCore's buffer contents when the region is entered: any
variable (V : (c : Dev nD) → (b : Ref sig .tc) → Buf (Elt Ideal) ((c : Thread nD τ).loc b))

/-! ## The windows' blocks as parts of their arrays -/

theorem hz : (![0, 0] : Fin 2 → Nat) = fun _ => 0 := funext fun a => by fin_cases a <;> rfl

/-- The index maps over the grid: at point t the row-blocked windows (the rows, the scaling column, the result) are at block
    (t, 0) and the weight matrix and the bias row at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t of the [100000, 128] operand is its row 10000 t + p. -/
theorem rows_entry (c : Dev nD) (t : Fin cfg3.N) (p : Fin 10000) (k : Fin 128) (P : Fin 100000) (hP : P.val = t.val * 10000 + p.val) :
    (iblk3 V c 0 t : Vec Ideal S10000x128 .f32) (ix2 p k) = V c main_v41 (ix2 P k) := by
  obtain ⟨e0, e1, -⟩ := idx_facts t
  unfold iblk3
  rw [View.read_apply]
  show V c main_v41 _ = V c main_v41 _
  congr 1
  funext a
  apply Fin.ext
  match a with
  | ⟨0, _⟩ => show win3_0.index t (0 : Fin 2) * 10000 + 1 * p.val = P.val; rw [e0, hP]; omega
  | ⟨1, _⟩ => show win3_0.index t (1 : Fin 2) * 128 + 1 * k.val = k.val; rw [e1]; omega

/-- Row p of block t of the [100000, 1] scaling column is its row 10000 t + p. -/
theorem scale_entry (c : Dev nD) (t : Fin cfg3.N) (p : Fin 10000) (P : Fin 100000) (hP : P.val = t.val * 10000 + p.val) :
    (iblk3 V c 1 t : Vec Ideal S10000x1 .f32) (ix2 p (0 : Fin 1)) = V c main_v42 (ix2 P (0 : Fin 1)) := by
  obtain ⟨-, -, e0, e1, -⟩ := idx_facts t
  unfold iblk3
  rw [View.read_apply]
  show V c main_v42 _ = V c main_v42 _
  congr 1
  funext a
  apply Fin.ext
  match a with
  | ⟨0, _⟩ => show win3_1.index t (0 : Fin 2) * 10000 + 1 * p.val = P.val; rw [e0, hP]; omega
  | ⟨1, _⟩ => show win3_1.index t (1 : Fin 2) * 1 + 1 * 0 = 0; rw [e1]

/-- The weight window's one block is the whole [128, 64] matrix. -/
theorem weight_entry (c : Dev nD) (t : Fin cfg3.N) (k : Fin 128) (q : Fin 64) :
    (iblk3 V c 2 t : Vec Ideal S128x64 .f32) (ix2 k q) = V c main_arg3 (ix2 k q) := by
  obtain ⟨-, -, -, -, e0, e1, -⟩ := idx_facts t
  unfold iblk3
  rw [View.read_apply]
  show V c main_arg3 _ = V c main_arg3 _
  congr 1
  funext a
  apply Fin.ext
  match a with
  | ⟨0, _⟩ => show win3_2.index t (0 : Fin 2) * 128 + 1 * k.val = k.val; rw [e0]; omega
  | ⟨1, _⟩ => show win3_2.index t (1 : Fin 2) * 64 + 1 * q.val = q.val; rw [e1]; omega

/-- The bias window's one block is the whole [1, 64] row. -/
theorem bias_entry (c : Dev nD) (t : Fin cfg3.N) (q : Fin 64) :
    (iblk3 V c 3 t : Vec Ideal S1x64 .f32) (ix2 (0 : Fin 1) q) = V c main_v43 (ix2 (0 : Fin 1) q) := by
  obtain ⟨-, -, -, -, -, -, e0, e1, -⟩ := idx_facts t
  unfold iblk3
  rw [View.read_apply]
  show V c main_v43 _ = V c main_v43 _
  congr 1
  funext a
  apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega

/-- Entry (p, q) of the result window's block t sits at (10000 t + p, q) of the [100000, 64] result array. -/
theorem result_emb (t : Fin cfg3.N) (p : Fin 10000) (q : Fin 64) (P : Fin 100000) (hP : P.val = t.val * 10000 + p.val) :
    ((cfg3.win 4).blk t).view.emb (ix2 p q) = (ix2 P q : S100000x64.Idx) := by
  obtain ⟨-, -, -, -, -, -, -, -, e0, e1⟩ := idx_facts t
  funext a
  apply Fin.ext
  match a with
  | ⟨0, _⟩ => show win3_4.index t (0 : Fin 2) * 10000 + 1 * p.val = P.val; rw [e0, hP]; omega
  | ⟨1, _⟩ => show win3_4.index t (1 : Fin 2) * 64 + 1 * q.val = q.val; rw [e1]; omega

/-! ## From blocks to the array -/

/-- What point t writes back is block t of `linear64` of the four operand arrays. -/
theorem flushed_eq (c : Dev nD) (t : Fin cfg3.N) :
    (dat3 (F := Ideal) V c).flushed 4 t
      = ((cfg3.win 4).blk t).view.read (Elt Ideal) (linear64 (V c main_v41) (V c main_v42) (V c main_arg3) (V c main_v43)) := by
  show (cfg3.win 4).cut (grid3.coords t) ((dat3 V c).after 4 t) = _
  rw [after3_4]
  unfold out3_4
  rw [View.canon_unit_zero hz]
  simp only [View.ld_unit_zero (S := S10000x128) hz, View.ld_unit_zero (S := S10000x1) hz, View.ld_unit_zero (S := S128x64) hz,
    View.ld_unit_zero (S := S1x64) hz]
  have hN : t.val < 10 := by have h1 := t.isLt; have h2 : cfg3.N = 10 := N_3; omega
  refine funext fun (j : S10000x64.Idx) => ?_
  obtain ⟨p, q, rfl⟩ : ∃ (p : Fin 10000) (q : Fin 64), j = ix2 p q := ⟨j 0, j 1, eq_ix2 j⟩
  have hp : t.val * 10000 + p.val < 100000 := by have := p.isLt; omega
  show k3_pay1 (F := Ideal) (iblk3 V c 0 t) (iblk3 V c 1 t) (iblk3 V c 2 t) (iblk3 V c 3 t) (ix2 p q)
    = linear64 (V c main_v41) (V c main_v42) (V c main_arg3) (V c main_v43) (((cfg3.win 4).blk t).view.emb (ix2 p q))
  refine (pay_entry _ _ _ _ p q).trans ?_
  rw [result_emb t p q ⟨t.val * 10000 + p.val, hp⟩ rfl, Cert.GraphConvSpec.linear64_apply]
  refine congrArg₂ (· + ·) (Finset.sum_congr rfl fun k _ => ?_) (bias_entry V c t q)
  rw [rows_entry V c t p k ⟨t.val * 10000 + p.val, hp⟩ rfl, scale_entry V c t p ⟨t.val * 10000 + p.val, hp⟩ rfl, weight_entry V c t k q]

/-- An index of the result array is in point t's block iff each coordinate is in the block's range on its axis. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v44).slice (win3_4.rect t)).set ↔ _
  rw [View.set_slice_whole, Rect.mem_set_unit]
  exact Iff.rfl

/-- Every index of the result array is in the block of the point its row falls in: row r in block r / 10000. -/
theorem cover (i : S100000x64.Idx) : ∃ t : Fin cfg3.N, (cfg3.win 4).flush t = true ∧ i ∈ ((cfg3.win 4).blk t).view.set := by
  have hi0 : (i 0).val < 100000 := idx2_lt0 i
  have hi1 : (i 1).val < 64 := idx2_lt1 i
  have hN : cfg3.N = 10 := N_3
  let t : Fin cfg3.N := ⟨(i 0).val / 10000, by rw [hN]; omega⟩
  obtain ⟨-, -, -, -, -, -, -, -, e0, e1⟩ := idx_facts t
  have ht : t.val = (i 0).val / 10000 := rfl
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; rw [e0, ht]; omega
  | ⟨1, _⟩ => show win3_4.index t (1 : Fin 2) * 64 ≤ (i 1).val ∧ (i 1).val < win3_4.index t (1 : Fin 2) * 64 + 64; rw [e1]; omega

/-- After the fourth pallas_call its result array is `linear64` of its four operand arrays as the region found them. -/
theorem final3 (c : Dev nD) :
    (dat3 (F := Ideal) V c).arrAt 4 cfg3.N = linear64 (V c main_v41) (V c main_v42) (V c main_arg3) (V c main_v43) :=
  (dat3 (F := Ideal) V c).arrAt_eq_of_cover 4 _ (fun t _ => flushed_eq V c t) cover

end Cert.KernelIdeal.Hand.Linear2

end
-- ==== Proof.Chain.lean ====
/-
  The kernel program's buffers followed through its run: eight boundaries, a stretch of plain array operations or a
  pallas_call between each two.

  At each boundary the buffers that matter later are named as functions of the seven argument arrays: the argument
  arrays themselves (nothing writes them), the two per-node factors deg^(-1/2) computed before the first pallas_call, and
  each pallas_call's result: the scaled features, the first layer's output, its scaled copy, and at the end the program's
  result, `kernelResult` of the arguments. A stretch of array operations is read operation by operation; a pallas_call
  leaves its result array at its whole-array function of its operands and every buffer outside its windows untouched.
-/
import proofs.«181453_j77584289235636_1_alg».proof.Proof.Gen.KernelIdeal.Frame
import proofs.«181453_j77584289235636_1_alg».proof.Proof.KDefs
import proofs.«181453_j77584289235636_1_alg».proof.Proof.RegScale
import proofs.«181453_j77584289235636_1_alg».proof.Proof.RegLinear1
import proofs.«181453_j77584289235636_1_alg».proof.Proof.RegLinear2
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand.Chain

open Cert.KernelIdeal Cert.KernelIdeal.Facts₀ Cert.KernelIdeal.Facts Cert.KernelIdeal.Gen Cert.KernelIdeal.Hand
open Cert.GraphConvSpec (rowScale linear128 linearRelu128 linear64)

variable (m : (ℓ : Loc nD τ sig) → Buf (Elt Ideal) ℓ) (ρ : Dev nD → PrngReg)

/-! ## Boundary 1: after the degree computation -/
theorem W1_arg0 (c : Dev nD) : W1 m ρ c (Proc.devRef .tc main_arg0) = m ((c : Thread nD τ).loc main_arg0) := by
  show StableHlo.after hostOps0 (W0 m ρ c) (Proc.devRef .tc main_arg0) = _
  generalize hW : W0 m ρ c = Wv
  after_results
  subst hW
  try rfl
theorem W1_arg1 (c : Dev nD) : W1 m ρ c (Proc.devRef .tc main_arg1) = m ((c : Thread nD τ).loc main_arg1) := by
  show StableHlo.after hostOps0 (W0 m ρ c) (Proc.devRef .tc main_arg1) = _
  generalize hW : W0 m ρ c = Wv
  after_results
  subst hW
  try rfl
theorem W1_arg2 (c : Dev nD) : W1 m ρ c (Proc.devRef .tc main_arg2) = m ((c : Thread nD τ).loc main_arg2) := by
  show StableHlo.after hostOps0 (W0 m ρ c) (Proc.devRef .tc main_arg2) = _
  generalize hW : W0 m ρ c = Wv
  after_results
  subst hW
  try rfl
theorem W1_arg3 (c : Dev nD) : W1 m ρ c (Proc.devRef .tc main_arg3) = m ((c : Thread nD τ).loc main_arg3) := by
  show StableHlo.after hostOps0 (W0 m ρ c) (Proc.devRef .tc main_arg3) = _
  generalize hW : W0 m ρ c = Wv
  after_results
  subst hW
  try rfl
theorem W1_arg4 (c : Dev nD) : W1 m ρ c (Proc.devRef .tc main_arg4) = m ((c : Thread nD τ).loc main_arg4) := by
  show StableHlo.after hostOps0 (W0 m ρ c) (Proc.devRef .tc main_arg4) = _
  generalize hW : W0 m ρ c = Wv
  after_results
  subst hW
  try rfl
theorem W1_arg5 (c : Dev nD) : W1 m ρ c (Proc.devRef .tc main_arg5) = m ((c : Thread nD τ).loc main_arg5) := by
  show StableHlo.after hostOps0 (W0 m ρ c) (Proc.devRef .tc main_arg5) = _
  generalize hW : W0 m ρ c = Wv
  after_results
  subst hW
  try rfl
theorem W1_arg6 (c : Dev nD) : W1 m ρ c (Proc.devRef .tc main_arg6) = m ((c : Thread nD τ).loc main_arg6) := by
  show StableHlo.after hostOps0 (W0 m ρ c) (Proc.devRef .tc main_arg6) = _
  generalize hW : W0 m ρ c = Wv
  after_results
  subst hW
  try rfl
theorem W1_v10 (c : Dev nD) : W1 m ρ c (Proc.devRef .tc main_v10) = invSqrtDeg (m ((c : Thread nD τ).loc main_arg5)) := by
  show StableHlo.after hostOps0 (W0 m ρ c) (Proc.devRef .tc main_v10) = _
  generalize hW : W0 m ρ c = Wv
  after_results
  subst hW
  try rfl
theorem W1_v14 (c : Dev nD) : W1 m ρ c (Proc.devRef .tc main_v14) = invSqrtDeg (m ((c : Thread nD τ).loc main_arg6)) := by
  show StableHlo.after hostOps0 (W0 m ρ c) (Proc.devRef .tc main_v14) = _
  generalize hW : W0 m ρ c = Wv
  after_results
  subst hW
  try rfl
theorem W1_v15 (c : Dev nD) : W1 m ρ c (Proc.devRef .tc main_v15) = asColumn (invSqrtDeg (m ((c : Thread nD τ).loc main_arg5))) := by
  show StableHlo.after hostOps0 (W0 m ρ c) (Proc.devRef .tc main_v15) = _
  generalize hW : W0 m ρ c = Wv
  after_results
  subst hW
  try rfl

/-! ## Boundary 2: after the first row scaling -/

theorem W2_v16 (c : Dev nD) : W2 m ρ c (Proc.devRef .tc main_v16) = rowScale (m ((c : Thread nD τ).loc main_arg0)) (asColumn (invSqrtDeg (m ((c : Thread nD τ).loc main_arg5)))) := by
  refine (W2_arr m ρ c 2).trans ((Scale.final0 (V1 m ρ) c).trans ?_)
  show rowScale (W1 m ρ c (Proc.devRef .tc main_arg0)) (W1 m ρ c (Proc.devRef .tc main_v15)) = _
  rw [W1_arg0, W1_v15]
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v10 (c : Dev nD) : W2 m ρ c (Proc.devRef .tc main_v10) = invSqrtDeg (m ((c : Thread nD τ).loc main_arg5)) :=
  (W2_of_ne m ρ c main_v10 (by decide)).trans (W1_v10 m ρ c)
theorem W2_v14 (c : Dev nD) : W2 m ρ c (Proc.devRef .tc main_v14) = invSqrtDeg (m ((c : Thread nD τ).loc main_arg6)) :=
  (W2_of_ne m ρ c main_v14 (by decide)).trans (W1_v14 m ρ c)

/-! ## Boundary 3: after the first aggregation -/
theorem W3_v26 (c : Dev nD) : W3 m ρ c (Proc.devRef .tc main_v26) = aggregate (rowScale (m ((c : Thread nD τ).loc main_arg0)) (asColumn (invSqrtDeg (m ((c : Thread nD τ).loc main_arg5))))) (m ((c : Thread nD τ).loc main_arg5)) (m ((c : Thread nD τ).loc main_arg6)) := by
  show StableHlo.after hostOps1 (W2 m ρ c) (Proc.devRef .tc main_v26) = _
  generalize hW : W2 m ρ c = Wv
  after_results
  subst hW
  rw [W2_v16, W2_arg5, W2_arg6]
  try rfl
theorem W3_v27 (c : Dev nD) : W3 m ρ c (Proc.devRef .tc main_v27) = asColumn (invSqrtDeg (m ((c : Thread nD τ).loc main_arg6))) := by
  show StableHlo.after hostOps1 (W2 m ρ c) (Proc.devRef .tc main_v27) = _
  generalize hW : W2 m ρ c = Wv
  after_results
  subst hW
  rw [W2_v14]
  try rfl
theorem W3_v28 (c : Dev nD) : W3 m ρ c (Proc.devRef .tc main_v28) = asRow128 (m ((c : Thread nD τ).loc main_arg2)) := by
  show StableHlo.after hostOps1 (W2 m ρ c) (Proc.devRef .tc main_v28) = _
  generalize hW : W2 m ρ c = Wv
  after_results
  subst hW
  rw [W2_arg2]
  try rfl
theorem W3_arg1 (c : Dev nD) : W3 m ρ c (Proc.devRef .tc main_arg1) = m ((c : Thread nD τ).loc main_arg1) := by
  show StableHlo.after hostOps1 (W2 m ρ c) (Proc.devRef .tc main_arg1) = _
  generalize hW : W2 m ρ c = Wv
  after_results
  subst hW
  rw [W2_arg1]
  try rfl
theorem W3_arg3 (c : Dev nD) : W3 m ρ c (Proc.devRef .tc main_arg3) = m ((c : Thread nD τ).loc main_arg3) := by
  show StableHlo.after hostOps1 (W2 m ρ c) (Proc.devRef .tc main_arg3) = _
  generalize hW : W2 m ρ c = Wv
  after_results
  subst hW
  rw [W2_arg3]
  try rfl
theorem W3_arg4 (c : Dev nD) : W3 m ρ c (Proc.devRef .tc main_arg4) = m ((c : Thread nD τ).loc main_arg4) := by
  show StableHlo.after hostOps1 (W2 m ρ c) (Proc.devRef .tc main_arg4) = _
  generalize hW : W2 m ρ c = Wv
  after_results
  subst hW
  rw [W2_arg4]
  try rfl
theorem W3_arg5 (c : Dev nD) : W3 m ρ c (Proc.devRef .tc main_arg5) = m ((c : Thread nD τ).loc main_arg5) := by
  show StableHlo.after hostOps1 (W2 m ρ c) (Proc.devRef .tc main_arg5) = _
  generalize hW : W2 m ρ c = Wv
  after_results
  subst hW
  rw [W2_arg5]
  try rfl
theorem W3_arg6 (c : Dev nD) : W3 m ρ c (Proc.devRef .tc main_arg6) = m ((c : Thread nD τ).loc main_arg6) := by
  show StableHlo.after hostOps1 (W2 m ρ c) (Proc.devRef .tc main_arg6) = _
  generalize hW : W2 m ρ c = Wv
  after_results
  subst hW
  rw [W2_arg6]
  try rfl
theorem W3_v10 (c : Dev nD) : W3 m ρ c (Proc.devRef .tc main_v10) = invSqrtDeg (m ((c : Thread nD τ).loc main_arg5)) := by
  show StableHlo.after hostOps1 (W2 m ρ c) (Proc.devRef .tc main_v10) = _
  generalize hW : W2 m ρ c = Wv
  after_results
  subst hW
  rw [W2_v10]
  try rfl
theorem W3_v14 (c : Dev nD) : W3 m ρ c (Proc.devRef .tc main_v14) = invSqrtDeg (m ((c : Thread nD τ).loc main_arg6)) := by
  show StableHlo.after hostOps1 (W2 m ρ c) (Proc.devRef .tc main_v14) = _
  generalize hW : W2 m ρ c = Wv
  after_results
  subst hW
  rw [W2_v14]
  try rfl

/-! ## Boundary 4: after the first linear layer -/

theorem W4_v29 (c : Dev nD) : W4 m ρ c (Proc.devRef .tc main_v29) = hidden (m ((c : Thread nD τ).loc main_arg0)) (m ((c : Thread nD τ).loc main_arg1)) (m ((c : Thread nD τ).loc main_arg2)) (m ((c : Thread nD τ).loc main_arg5)) (m ((c : Thread nD τ).loc main_arg6)) := by
  refine (W4_arr m ρ c 4).trans ((Linear1.final1 (V3 m ρ) c).trans ?_)
  show linearRelu128 (W3 m ρ c (Proc.devRef .tc main_v26)) (W3 m ρ c (Proc.devRef .tc main_v27)) (W3 m ρ c (Proc.devRef .tc main_arg1)) (W3 m ρ c (Proc.devRef .tc main_v28)) = _
  rw [W3_v26, W3_v27, W3_arg1, W3_v28]
  rfl
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_v10 (c : Dev nD) : W4 m ρ c (Proc.devRef .tc main_v10) = invSqrtDeg (m ((c : Thread nD τ).loc main_arg5)) :=
  (W4_of_ne m ρ c main_v10 (by decide)).trans (W3_v10 m ρ c)
theorem W4_v14 (c : Dev nD) : W4 m ρ c (Proc.devRef .tc main_v14) = invSqrtDeg (m ((c : Thread nD τ).loc main_arg6)) :=
  (W4_of_ne m ρ c main_v14 (by decide)).trans (W3_v14 m ρ c)

/-! ## Boundary 5: the out-degree factor laid out as a column again -/
theorem W5_v29 (c : Dev nD) : W5 m ρ c (Proc.devRef .tc main_v29) = hidden (m ((c : Thread nD τ).loc main_arg0)) (m ((c : Thread nD τ).loc main_arg1)) (m ((c : Thread nD τ).loc main_arg2)) (m ((c : Thread nD τ).loc main_arg5)) (m ((c : Thread nD τ).loc main_arg6)) := by
  show StableHlo.after hostOps2 (W4 m ρ c) (Proc.devRef .tc main_v29) = _
  generalize hW : W4 m ρ c = Wv
  after_results
  subst hW
  rw [W4_v29]
  try rfl
theorem W5_v30 (c : Dev nD) : W5 m ρ c (Proc.devRef .tc main_v30) = asColumn (invSqrtDeg (m ((c : Thread nD τ).loc main_arg5))) := by
  show StableHlo.after hostOps2 (W4 m ρ c) (Proc.devRef .tc main_v30) = _
  generalize hW : W4 m ρ c = Wv
  after_results
  subst hW
  rw [W4_v10]
  try rfl
theorem W5_arg3 (c : Dev nD) : W5 m ρ c (Proc.devRef .tc main_arg3) = m ((c : Thread nD τ).loc main_arg3) := by
  show StableHlo.after hostOps2 (W4 m ρ c) (Proc.devRef .tc main_arg3) = _
  generalize hW : W4 m ρ c = Wv
  after_results
  subst hW
  rw [W4_arg3]
  try rfl
theorem W5_arg4 (c : Dev nD) : W5 m ρ c (Proc.devRef .tc main_arg4) = m ((c : Thread nD τ).loc main_arg4) := by
  show StableHlo.after hostOps2 (W4 m ρ c) (Proc.devRef .tc main_arg4) = _
  generalize hW : W4 m ρ c = Wv
  after_results
  subst hW
  rw [W4_arg4]
  try rfl
theorem W5_arg5 (c : Dev nD) : W5 m ρ c (Proc.devRef .tc main_arg5) = m ((c : Thread nD τ).loc main_arg5) := by
  show StableHlo.after hostOps2 (W4 m ρ c) (Proc.devRef .tc main_arg5) = _
  generalize hW : W4 m ρ c = Wv
  after_results
  subst hW
  rw [W4_arg5]
  try rfl
theorem W5_arg6 (c : Dev nD) : W5 m ρ c (Proc.devRef .tc main_arg6) = m ((c : Thread nD τ).loc main_arg6) := by
  show StableHlo.after hostOps2 (W4 m ρ c) (Proc.devRef .tc main_arg6) = _
  generalize hW : W4 m ρ c = Wv
  after_results
  subst hW
  rw [W4_arg6]
  try rfl
theorem W5_v14 (c : Dev nD) : W5 m ρ c (Proc.devRef .tc main_v14) = invSqrtDeg (m ((c : Thread nD τ).loc main_arg6)) := by
  show StableHlo.after hostOps2 (W4 m ρ c) (Proc.devRef .tc main_v14) = _
  generalize hW : W4 m ρ c = Wv
  after_results
  subst hW
  rw [W4_v14]
  try rfl

/-! ## Boundary 6: after the second row scaling -/

theorem W6_v31 (c : Dev nD) : W6 m ρ c (Proc.devRef .tc main_v31) = rowScale (hidden (m ((c : Thread nD τ).loc main_arg0)) (m ((c : Thread nD τ).loc main_arg1)) (m ((c : Thread nD τ).loc main_arg2)) (m ((c : Thread nD τ).loc main_arg5)) (m ((c : Thread nD τ).loc main_arg6))) (asColumn (invSqrtDeg (m ((c : Thread nD τ).loc main_arg5)))) := by
  refine (W6_arr m ρ c 2).trans ((Scale.final2 (V5 m ρ) c).trans ?_)
  show rowScale (W5 m ρ c (Proc.devRef .tc main_v29)) (W5 m ρ c (Proc.devRef .tc main_v30)) = _
  rw [W5_v29, W5_v30]
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_v14 (c : Dev nD) : W6 m ρ c (Proc.devRef .tc main_v14) = invSqrtDeg (m ((c : Thread nD τ).loc main_arg6)) :=
  (W6_of_ne m ρ c main_v14 (by decide)).trans (W5_v14 m ρ c)

/-! ## Boundary 7: after the second aggregation -/
/-- The second aggregation read off its stretch of array operations, from any contents `Wv` of the buffers before it. -/
theorem aggregate2_of (Wv : Valuation τ sig (Elt Ideal)) :
    StableHlo.after hostOps3 Wv (Proc.devRef .tc main_v41)
      = aggregate (Wv (Proc.devRef .tc main_v31)) (Wv (Proc.devRef .tc main_arg5)) (Wv (Proc.devRef .tc main_arg6)) := by
  after_results
  try rfl
theorem W7_v41 (c : Dev nD) : W7 m ρ c (Proc.devRef .tc main_v41) = aggregate (rowScale (hidden (m ((c : Thread nD τ).loc main_arg0)) (m ((c : Thread nD τ).loc main_arg1)) (m ((c : Thread nD τ).loc main_arg2)) (m ((c : Thread nD τ).loc main_arg5)) (m ((c : Thread nD τ).loc main_arg6))) (asColumn (invSqrtDeg (m ((c : Thread nD τ).loc main_arg5))))) (m ((c : Thread nD τ).loc main_arg5)) (m ((c : Thread nD τ).loc main_arg6)) := by
  refine (aggregate2_of (W6 m ρ c)).trans ?_
  rw [W6_v31, W6_arg5, W6_arg6]
theorem W7_v42 (c : Dev nD) : W7 m ρ c (Proc.devRef .tc main_v42) = asColumn (invSqrtDeg (m ((c : Thread nD τ).loc main_arg6))) := by
  show StableHlo.after hostOps3 (W6 m ρ c) (Proc.devRef .tc main_v42) = _
  generalize hW : W6 m ρ c = Wv
  after_results
  subst hW
  rw [W6_v14]
  try rfl
theorem W7_v43 (c : Dev nD) : W7 m ρ c (Proc.devRef .tc main_v43) = asRow64 (m ((c : Thread nD τ).loc main_arg4)) := by
  show StableHlo.after hostOps3 (W6 m ρ c) (Proc.devRef .tc main_v43) = _
  generalize hW : W6 m ρ c = Wv
  after_results
  subst hW
  rw [W6_arg4]
  try rfl
theorem W7_arg3 (c : Dev nD) : W7 m ρ c (Proc.devRef .tc main_arg3) = m ((c : Thread nD τ).loc main_arg3) := by
  show StableHlo.after hostOps3 (W6 m ρ c) (Proc.devRef .tc main_arg3) = _
  generalize hW : W6 m ρ c = Wv
  after_results
  subst hW
  rw [W6_arg3]
  try rfl

/-! ## Boundary 8: the result -/

/-- When @main returns, its result buffer holds `kernelResult` of the seven argument arrays as launched. -/
theorem W8_result (c : Dev nD) : W8 m ρ c (Proc.devRef .tc main_v44)
    = kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((Linear2.final3 (V7 m ρ) c).trans ?_)
  show linear64 (W7 m ρ c (Proc.devRef .tc main_v41)) (W7 m ρ c (Proc.devRef .tc main_v42)) (W7 m ρ c (Proc.devRef .tc main_arg3)) (W7 m ρ c (Proc.devRef .tc main_v43)) = _
  rw [W7_v41, W7_v42, W7_arg3, W7_v43]
  rfl

end Cert.KernelIdeal.Hand.Chain

end
-- ==== Proof.Bridge.lean ====
/-
  The kernel program's result function is the reference program's.

  Stage by stage the two programs compute the same arrays. The host operations (degrees, the power -1/2, gather,
  scatter-add) are the same operations of the same operands in both. Where the kernel program runs a dense kernel the
  reference runs plain array operations:
    * a row-scaling kernel against  x · broadcast(column(v)) :  entry (p, q) of both is  x (p, q) · v p ;
    * a fused linear kernel against  dot(a · broadcast(column(v)), W) + broadcast(row(b))  (and max with zero):
      entry (p, q) of both is  Σ_k (a (p, k) · v p) · W (k, q) + b q .
  A vector reshaped to a column (or row) and the same vector broadcast into a column (or row) hold the same entries.
-/
import proofs.«181453_j77584289235636_1_alg».proof.Proof.KDefs
import proofs.«181453_j77584289235636_1_alg».proof.Proof.Gen.ReferenceIdeal.Read
import Idealize.ShloMosaic.Lib.Pipeline.Value
import Idealize.ShloMosaic.Lib.ValueIdx
import Idealize.ShloMosaic.Lib.ValueLayout
import proofs.«181453_j77584289235636_1_alg».proof.Proof.LibKeepdims
import Idealize.ShloMosaic.PureOps.Ideal.Laws

noncomputable section

open scoped BigOperators
open Idealize.ShloMosaic Idealize.ShloMosaic.TcCoe Idealize.ShloMosaic.ValueIdx

namespace Cert.Proof.Bridge

open Cert.GraphConvSpec (rowScale linear128 linearRelu128 linear64)
open Cert.KernelIdeal.Hand (EdgeIdx invSqrtDeg asColumn asRow128 asRow64 sourceRows aggregate hidden kernelResult)
open Cert.ReferenceIdeal.Read

/-! ## A vector laid out as a column or a row, read at an index -/

section Layout

variable {α : Type}

/-- A vector broadcast to a one-column array reads, at `(p, u)`, the vector at `p`. -/
theorem bcastCol_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) fun ax => match ax with
    | ⟨0, _⟩ => by
      show p.val = if a = 1 then 0 else p.val
      split
      · have := p.isLt; omega
      · rfl

/-- A vector broadcast to a column and then across `b` columns reads, at `(p, c)`, the vector at `p`. -/
theorem bcastColWide_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (broadcastInDim_apply _ h2 _ (ix2 p c) (ix2 p (0 : Fin 1)) fun ax => match ax with
    | ⟨0, _⟩ => by
      show p.val = if a = 1 then 0 else p.val
      split
      · have := p.isLt; omega
      · rfl
    | ⟨1, _⟩ => by
      show 0 = if (1 : ℕ) = 1 then 0 else c.val
      rw [if_pos rfl]).trans (bcastCol_apply v h1 p 0)

/-- A vector broadcast to a one-row array reads, at `(u, c)`, the vector at `c`. -/
theorem bcastRow_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v (ix2 u c) (ix1 c) fun ax => match ax with
    | ⟨0, _⟩ => by
      show c.val = if b = 1 then 0 else c.val
      split
      · have := c.isLt; omega
      · rfl

/-- A vector broadcast to a row and then down `a` rows reads, at `(p, c)`, the vector at `c`. -/
theorem bcastRowTall_apply {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (broadcastInDim_apply _ h2 _ (ix2 p c) (ix2 (0 : Fin 1) c) fun ax => match ax with
    | ⟨0, _⟩ => by
      show 0 = if (1 : ℕ) = 1 then 0 else p.val
      rw [if_pos rfl]
    | ⟨1, _⟩ => by
      show c.val = if b = 1 then 0 else c.val
      split
      · have := c.isLt; omega
      · rfl).trans (bcastRow_apply v h1 0 c)

end Layout

/-- The column of a per-node vector holds, in row `p`, the vector's entry `p`. -/
theorem asColumn_apply (v : FVec Ideal Cert.KernelIdeal.S100000 .f32) (p : Fin 100000) :
    asColumn v (ix2 p (0 : Fin 1)) = v (ix1 p) :=
  Idealize.ShloMosaic.Keepdims.shapeCast_a_a1_apply v _ p 0

/-- The row of a 128-vector holds, in column `q`, the vector's entry `q`. -/
theorem asRow128_apply (b : FVec Ideal Cert.KernelIdeal.S128 .f32) (q : Fin 128) :
    asRow128 b (ix2 (0 : Fin 1) q) = b (ix1 q) :=
  shapeCast_a_1a_apply b _ 0 q

/-- The row of a 64-vector holds, in column `q`, the vector's entry `q`. -/
theorem asRow64_apply (b : FVec Ideal Cert.KernelIdeal.S64 .f32) (q : Fin 64) :
    asRow64 b (ix2 (0 : Fin 1) q) = b (ix1 q) :=
  shapeCast_a_1a_apply b _ 0 q

/-! ## The host stretches: the same operations of the same operands -/

/-- The source side's deg^(-1/2) is the reference's. -/
theorem invSqrtDeg_src (x5 : EdgeIdx) : invSqrtDeg x5 = val_main_v10 (F := Ideal) x5 := rfl

/-- The destination side's deg^(-1/2) is the reference's. -/
theorem invSqrtDeg_dst (x6 : EdgeIdx) : invSqrtDeg x6 = val_main_v14 (F := Ideal) x6 := rfl

/-- The first layer's aggregation is the reference's gather and scatter-add. -/
theorem aggregate_first (x0 : FVec Ideal Cert.KernelIdeal.S100000x128 .f32) (x5 x6 : EdgeIdx) :
    aggregate (val_main_v17 (F := Ideal) x0 x5) x5 x6 = val_main_v27 (F := Ideal) x0 x5 x6 := rfl

/-- The second layer's aggregation is the reference's gather and scatter-add. -/
theorem aggregate_second (x0 : FVec Ideal Cert.KernelIdeal.S100000x128 .f32) (x1 : FVec Ideal Cert.KernelIdeal.S128x128 .f32)
    (x2 : FVec Ideal Cert.KernelIdeal.S128 .f32) (x5 x6 : EdgeIdx) :
    aggregate (val_main_v38 (F := Ideal) x0 x1 x2 x5 x6) x5 x6 = val_main_v48 (F := Ideal) x0 x1 x2 x5 x6 := rfl

/-! ## The row scaling against  x · broadcast(column(v)) -/

/-- Entry (p, q) of both is  x (p, q) · v p. -/
theorem rowScale_column (x : FVec Ideal Cert.KernelIdeal.S100000x128 .f32) (v : FVec Ideal Cert.KernelIdeal.S100000 .f32)
    (h1 : (⟨1, ![100000]⟩ : Shape).BroadcastsInDim ⟨2, ![100000, 1]⟩ (![0] : Fin 1 → Fin 2))
    (h2 : (⟨2, ![100000, 1]⟩ : Shape).BroadcastsInDim ⟨2, ![100000, 128]⟩ (![0, 1] : Fin 2 → Fin 2)) :
    rowScale x (asColumn v)
      = mulf x (broadcastInDim ⟨2, ![100000, 128]⟩ ![0, 1] h2 (broadcastInDim ⟨2, ![100000, 1]⟩ ![0] h1 v)) := by
  funext i
  obtain ⟨p, q, rfl⟩ : ∃ (p : Fin 100000) (q : Fin 128), i = ix2 p q := ⟨i 0, i 1, eq_ix2 i⟩
  rw [Cert.GraphConvSpec.rowScale_apply, mulf_apply, bcastColWide_apply, asColumn_apply]

/-- The first layer's scaled input is the reference's product with the broadcast column. -/
theorem scale_first (x0 : FVec Ideal Cert.KernelIdeal.S100000x128 .f32) (x5 : EdgeIdx) :
    rowScale x0 (asColumn (invSqrtDeg x5)) = val_main_v17 (F := Ideal) x0 x5 := by
  rw [invSqrtDeg_src]
  exact rowScale_column x0 (val_main_v10 x5) _ _

/-- The second layer's scaled input is the reference's product with the broadcast column. -/
theorem scale_second (x0 : FVec Ideal Cert.KernelIdeal.S100000x128 .f32) (x1 : FVec Ideal Cert.KernelIdeal.S128x128 .f32)
    (x2 : FVec Ideal Cert.KernelIdeal.S128 .f32) (x5 x6 : EdgeIdx) :
    rowScale (val_main_v35 (F := Ideal) x0 x1 x2 x5 x6) (asColumn (invSqrtDeg x5)) = val_main_v38 (F := Ideal) x0 x1 x2 x5 x6 := by
  rw [invSqrtDeg_src]
  exact rowScale_column _ (val_main_v10 x5) _ _

/-! ## The fused linear kernels against  dot(a · broadcast(column(v)), W) + broadcast(row(b)) -/

/-- The first layer. Entry (p, q) of both is  max(Σ_k (a (p, k) · v p) · W1 (k, q) + b1 q, 0). -/
theorem linear_first (x0 : FVec Ideal Cert.KernelIdeal.S100000x128 .f32) (x1 : FVec Ideal Cert.KernelIdeal.S128x128 .f32)
    (x2 : FVec Ideal Cert.KernelIdeal.S128 .f32) (x5 x6 : EdgeIdx) :
    linearRelu128 (val_main_v27 (F := Ideal) x0 x5 x6) (asColumn (invSqrtDeg x6)) x1 (asRow128 x2)
      = val_main_v35 (F := Ideal) x0 x1 x2 x5 x6 := by
  rw [invSqrtDeg_dst]
  funext i
  obtain ⟨p, q, rfl⟩ : ∃ (p : Fin 100000) (q : Fin 128), i = ix2 p q := ⟨i 0, i 1, eq_ix2 i⟩
  rw [Cert.GraphConvSpec.linearRelu128_apply, val_main_v35_apply, val_main_v34_apply, val_main_v31_apply]
  have hl : ∀ k : Fin 128, lidx_main_v31 (ix2 p q) k = ix2 p k := fun k => funext fun a => by
    match a with
    | ⟨0, _⟩ => rfl
    | ⟨1, _⟩ => rfl
  have hr : ∀ k : Fin 128, ridx_main_v31 (ix2 p q) k = ix2 k q := fun k => funext fun a => by
    match a with
    | ⟨0, _⟩ => rfl
    | ⟨1, _⟩ => rfl
  have hv : ∀ k : Fin 128, val_main_v29 (F := Ideal) x6 (ix2 p k) = val_main_v14 (F := Ideal) x6 (ix1 p) := fun k =>
    bcastColWide_apply (val_main_v14 (F := Ideal) x6) _ _ p k
  have hs : ∀ k : Fin 128,
      val_main_v30 (F := Ideal) x0 x5 x6 (lidx_main_v31 (ix2 p q) k) * x1 (ridx_main_v31 (ix2 p q) k)
        = (val_main_v27 (F := Ideal) x0 x5 x6 (ix2 p k) * asColumn (val_main_v14 (F := Ideal) x6) (ix2 p (0 : Fin 1))) * x1 (ix2 k q) := by
    intro k
    rw [hl k, hr k, val_main_v30_apply, hv k, asColumn_apply]
    rfl
  have hb : val_main_v33 (F := Ideal) x2 (ix2 p q) = asRow128 x2 (ix2 (0 : Fin 1) q) :=
    (bcastRowTall_apply x2 _ _ p q).trans (asRow128_apply x2 q).symm
  have hz : val_main_call0_v0 (F := Ideal) (ix2 p q) = Ideal.ofBits .f32 0x00000000#32 := rfl
  rw [Finset.sum_congr rfl fun k _ => hs k, hb, hz]
  rfl

/-- The second layer. Entry (p, q) of both is  Σ_k (a (p, k) · v p) · W2 (k, q) + b2 q. -/
theorem linear_second (x0 : FVec Ideal Cert.KernelIdeal.S100000x128 .f32) (x1 : FVec Ideal Cert.KernelIdeal.S128x128 .f32)
    (x2 : FVec Ideal Cert.KernelIdeal.S128 .f32) (x3 : FVec Ideal Cert.KernelIdeal.S128x64 .f32)
    (x4 : FVec Ideal Cert.KernelIdeal.S64 .f32) (x5 x6 : EdgeIdx) :
    linear64 (val_main_v48 (F := Ideal) x0 x1 x2 x5 x6) (asColumn (invSqrtDeg x6)) x3 (asRow64 x4)
      = val_main_v55 (F := Ideal) x0 x1 x2 x3 x4 x5 x6 := by
  rw [invSqrtDeg_dst]
  funext i
  obtain ⟨p, q, rfl⟩ : ∃ (p : Fin 100000) (q : Fin 64), i = ix2 p q := ⟨i 0, i 1, eq_ix2 i⟩
  rw [Cert.GraphConvSpec.linear64_apply, val_main_v55_apply, val_main_v52_apply]
  have hl : ∀ k : Fin 128, lidx_main_v52 (ix2 p q) k = ix2 p k := fun k => funext fun a => by
    match a with
    | ⟨0, _⟩ => rfl
    | ⟨1, _⟩ => rfl
  have hr : ∀ k : Fin 128, ridx_main_v52 (ix2 p q) k = ix2 k q := fun k => funext fun a => by
    match a with
    | ⟨0, _⟩ => rfl
    | ⟨1, _⟩ => rfl
  have hv : ∀ k : Fin 128, val_main_v50 (F := Ideal) x6 (ix2 p k) = val_main_v14 (F := Ideal) x6 (ix1 p) := fun k =>
    bcastColWide_apply (val_main_v14 (F := Ideal) x6) _ _ p k
  have hs : ∀ k : Fin 128,
      val_main_v51 (F := Ideal) x0 x1 x2 x5 x6 (lidx_main_v52 (ix2 p q) k) * x3 (ridx_main_v52 (ix2 p q) k)
        = (val_main_v48 (F := Ideal) x0 x1 x2 x5 x6 (ix2 p k) * asColumn (val_main_v14 (F := Ideal) x6) (ix2 p (0 : Fin 1))) * x3 (ix2 k q) := by
    intro k
    rw [hl k, hr k, val_main_v51_apply, hv k, asColumn_apply]
    rfl
  have hb : val_main_v54 (F := Ideal) x4 (ix2 p q) = asRow64 x4 (ix2 (0 : Fin 1) q) :=
    (bcastRowTall_apply x4 _ _ p q).trans (asRow64_apply x4 q).symm
  rw [Finset.sum_congr rfl fun k _ => hs k, hb]
  rfl

/-- The kernel program's result, as a function of the seven argument arrays, is the reference's last stage. -/
theorem kernelResult_eq_reference
    (x0 : FVec Ideal Cert.KernelIdeal.S100000x128 .f32) (x1 : FVec Ideal Cert.KernelIdeal.S128x128 .f32)
    (x2 : FVec Ideal Cert.KernelIdeal.S128 .f32) (x3 : FVec Ideal Cert.KernelIdeal.S128x64 .f32)
    (x4 : FVec Ideal Cert.KernelIdeal.S64 .f32) (x5 x6 : Cert.KernelIdeal.Hand.EdgeIdx) :
    Cert.KernelIdeal.Hand.kernelResult x0 x1 x2 x3 x4 x5 x6
      = Cert.ReferenceIdeal.Read.val_main_v55 (F := Ideal) x0 x1 x2 x3 x4 x5 x6 := by
  unfold Cert.KernelIdeal.Hand.kernelResult Cert.KernelIdeal.Hand.hidden
  rw [scale_first x0 x5, aggregate_first x0 x5 x6, linear_first x0 x1 x2 x5 x6, scale_second x0 x1 x2 x5 x6,
    aggregate_second x0 x1 x2 x5 x6, linear_second x0 x1 x2 x3 x4 x5 x6]

end Cert.Proof.Bridge

end
-- ==== Proof.lean ====
/-
  The certificate of a two-layer graph convolution: the Pallas program against its plain array reference, over the
  extended reals.

  Both programs compute, for node features x0, weights W1, W2, biases b1, b2 and an edge list (src, dst),
      h   = max( D_in^(-1/2) · A · D_out^(-1/2) · x0 · W1 + b1 , 0 )
      out =      D_in^(-1/2) · A · D_out^(-1/2) · h  · W2 + b2
  where A sums, into each destination node's row, the rows of the source nodes over the edges, and D_out, D_in hold the
  node degrees clamped below at one. The kernel program runs the two row scalings and the two fused
  "scale, multiply by the weights, add the bias" steps as pallas_calls over ten blocks of 10000 rows each; the degrees, the
  gather and the scatter-add are the same array operations in both programs.

  The three frames: the two kernel programs' are the generated ones; the reference's is its generated run with the
  result dropped. The idealization rewrote nothing, so `preserves` asks nothing. For `algebraic`: the kernel program's
  run ends with its result buffer at the last boundary's contents (`run_W8`), which is `kernelResult` of the arguments
  (`Chain.W8_result`: each pallas_call's ten blocks tile its result array, each block the kernel body of the operands' row
  blocks); the reference's run ends at its composed term, which is its last stage `val_main_v55` of the arguments; and the
  two are one function (`Bridge.kernelResult_eq_reference`): a matrix product of a row block is the row block of the matrix
  product, the narrowing to bf16 is the identity on extended reals, and a vector reshaped into a column holds what the
  same vector broadcast into a column holds. No law needs finiteness: the precondition is never opened.
-/
import proofs.«181453_j77584289235636_1_alg».proof.Defs
import proofs.«181453_j77584289235636_1_alg».proof.Proof.Gen.Kernel
import proofs.«181453_j77584289235636_1_alg».proof.Proof.Gen.Kernel.Skeleton
import proofs.«181453_j77584289235636_1_alg».proof.Proof.Gen.Kernel.Launch
import proofs.«181453_j77584289235636_1_alg».proof.Proof.Gen.Kernel.Points
import proofs.«181453_j77584289235636_1_alg».proof.Proof.Gen.Kernel.Frame
import proofs.«181453_j77584289235636_1_alg».proof.Proof.Gen.KernelIdeal
import proofs.«181453_j77584289235636_1_alg».proof.Proof.Gen.KernelIdeal.Skeleton
import proofs.«181453_j77584289235636_1_alg».proof.Proof.Gen.KernelIdeal.Launch
import proofs.«181453_j77584289235636_1_alg».proof.Proof.Gen.KernelIdeal.Points
import proofs.«181453_j77584289235636_1_alg».proof.Proof.Gen.KernelIdeal.Frame
import proofs.«181453_j77584289235636_1_alg».proof.Proof.Gen.ReferenceIdeal
import proofs.«181453_j77584289235636_1_alg».proof.Proof.Gen.Pre_finite_inputs
import proofs.«181453_j77584289235636_1_alg».proof.Proof.Gen.ReferenceIdeal.Run
import proofs.«181453_j77584289235636_1_alg».proof.Proof.Gen.ReferenceIdeal.Read
import proofs.«181453_j77584289235636_1_alg».proof.Proof.KRun
import proofs.«181453_j77584289235636_1_alg».proof.Proof.Chain
import proofs.«181453_j77584289235636_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at `kernelResult` of the (agreeing) argument arrays. -/
theorem algebraic : Cert.algebraic_KernelIdeal_ReferenceIdeal := by
  intro m ρ m' ρ' _ hagree
  refine ⟨fun c => Cert.KernelIdeal.Hand.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.Chain.W8_result m ρ c), (h c).2⟩)
      (Cert.KernelIdeal.GenP.run_W8 (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v55_eq, e0, e1, e2, e3, e4, e5, e6]
    exact (Cert.Proof.Bridge.kernelResult_eq_reference _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
